-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1024 : Shape := ⟨2, ![256, 1024]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x512 .f32) (main_arg1 : FVec F S256x1024 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S256x512 : Shape := ⟨2, ![256, 512]⟩
abbrev S256x1024 : Shape := ⟨2, ![256, 1024]⟩
abbrev S256x1536 : Shape := ⟨2, ![256, 1536]⟩
abbrev S128x512 : Shape := ⟨2, ![128, 512]⟩
abbrev S128x1024 : Shape := ⟨2, ![128, 1024]⟩
abbrev S128x1536 : Shape := ⟨2, ![128, 1536]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S256x1536, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1536, .f32⟩
  | .local _ .vmem, ⟨5, _⟩ => ⟨S128x1536, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  reduces_S128x512_S128 : S128x512.Reduces [1] S128
  shapeCasts_S128_S128x1 : S128.ShapeCasts S128x1
  reduces_S128x1024_S128 : S128x1024.Reduces [1] S128
  broadcasts_S128x1_S128x512 : S128x1.Broadcasts S128x512
  broadcasts_S128x1_S128x1024 : S128x1.Broadcasts S128x1024
  inb_S128x1536_S128x512_0_0 : ∀ a, (![0, 0] : Fin 2 → Nat) a + S128x512.size a ≤ S128x1536.size a
  inb_S128x1536_S128x1024_0_512 : ∀ a, (![0, 512] : Fin 2 → Nat) a + S128x1024.size a ≤ S128x1536.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S256x512.size a
  hwx0_0 : ∀ i : grid0.Coords, EltTy.bits .f32 = 32 ∨ (Rect.block (s := S256x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S256x1024.size a
  hwx0_1 : ∀ i : grid0.Coords, EltTy.bits .f32 = 32 ∨ (Rect.block (s := S256x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1536.size a ≤ S256x1536.size a
  hwx0_2 : ∀ i : grid0.Coords, EltTy.bits .f32 = 32 ∨ (Rect.block (s := S256x1536) S128x1536.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S256x1024 : Shape := ⟨2, ![256, 1024]⟩
abbrev S256x512x1 : Shape := ⟨3, ![256, 512, 1]⟩
abbrev S256x1x1024 : Shape := ⟨3, ![256, 1, 1024]⟩
abbrev S256x512x1024 : Shape := ⟨3, ![256, 512, 1024]⟩
abbrev S_ : Shape := ⟨0, ![]⟩
abbrev S256x1536 : Shape := ⟨2, ![256, 1536]⟩

abbrev nBuf : Space → Nat
  | .hbm => 18
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S256x512x1, .f32⟩
  | .hbm, ⟨3, _⟩ => ⟨S256x1x1024, .f32⟩
  | .hbm, ⟨4, _⟩ => ⟨S256x512x1024, .f32⟩
  | .hbm, ⟨5, _⟩ => ⟨S256x512x1024, .f32⟩
  | .hbm, ⟨6, _⟩ => ⟨S256x512x1024, .f32⟩
  | .hbm, ⟨7, _⟩ => ⟨S_, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S_, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1536, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x1024_S256x1x1024_0_2 : S256x1024.BroadcastsInDim S256x1x1024 (![0, 2] : Fin 2 → Fin S256x1x1024.rank)
  bcast_S256x512x1_S256x512x1024_0_1_2 : S256x512x1.BroadcastsInDim S256x512x1024 (![0, 1, 2] : Fin 3 → Fin S256x512x1024.rank)
  bcast_S256x1x1024_S256x512x1024_0_1_2 : S256x1x1024.BroadcastsInDim S256x512x1024 (![0, 1, 2] : Fin 3 → Fin S256x512x1024.rank)
  reducesTo_S256x512x1024_S256x512_d2 : S256x512x1024.ReducesTo [2] S256x512
  h_S_ : 0 < S_.numel
  bcast_S_S256x512 : S_.BroadcastsInDim S256x512 (![] : Fin 0 → Fin S256x512.rank)
  reducesTo_S256x512x1024_S256x1024_d1 : S256x512x1024.ReducesTo [1] S256x1024
  bcast_S_S256x1024 : S_.BroadcastsInDim S256x1024 (![] : Fin 0 → Fin S256x1024.rank)
  concatenates_S256x512_S256x1024_S256x1536_d1 : Shape.Concatenates [S256x512, S256x1024] S256x1536 1

variable [Facts₀]

class Facts : Prop extends Facts₀ where

variable [Facts]
-- ==== Proof.RealInputs.lean ====
/-
  What the precondition says: every entry of both inputs is a real number.

  The precondition is the conjunction of two tests, one per input: "`|x| < +∞` at every index".
  At the ideal reading an entry is an extended real, `|x|` is `max x (-x)`, and the float word
  `0x7F800000` is `⊤`; so the test at an index rules out `x = ⊤` and `x = ⊥`, and what is left is the
  coercion of a real. "At every index" is an `and`-reduction of the whole array of one-bit answers
  into a single bit, which is `1` only if every answer is.
-/
import proofs.«176359_j11682311045657_1_alg».proof.Pre_finite_inputs
import Idealize.ShloMosaic.Lib.ReduceAll
import Idealize.ShloMosaic.Lib.ValueIdx
import Idealize.ShloMosaic.PureOps.Ideal.Laws

noncomputable section

namespace Cert.RowMeans

open Idealize.ShloMosaic Idealize.ShloMosaic.ValueIdx

/-- An extended real whose absolute value is below `+∞` (the float word `0x7F800000`) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- The rank-0 shape has one index. -/
instance : Subsingleton (⟨0, ![]⟩ : Shape).Idx := ⟨fun a b => funext fun d => d.elim0⟩

/-- Under the precondition every entry of `x1` and of `x2` is (the coercion of) a real number. -/
theorem real_of_pre [Cert.Pre_finite_inputs.Facts]
    (x1 : FVec Ideal Cert.Pre_finite_inputs.S256x512 .f32) (x2 : FVec Ideal Cert.Pre_finite_inputs.S256x1024 .f32)
    (h : Cert.Pre_finite_inputs.fn (F := Ideal) x1 x2 = fun _ => 1#1) :
    (∀ i, ∃ r : ℝ, x1 i = (r : EReal)) ∧ (∀ i, ∃ r : ℝ, x2 i = (r : EReal)) := by
  have h0 := congrFun h ix0
  dsimp only [Cert.Pre_finite_inputs.fn] at h0
  obtain ⟨ha, hb⟩ := IntOp.andi_eq_one.1 h0
  refine ⟨fun i => ?_, fun i => ?_⟩
  · exact real_of_abs_lt_inf (x1 i) (Host.reduce_andi_all _ _ _ _ _ ha i)
  · exact real_of_abs_lt_inf (x2 i) (Host.reduce_andi_all _ _ _ _ _ hb i)

end Cert.RowMeans

end
-- ==== Proof.RowMeans.lean ====
/-
  The arithmetic of the claim, with no program in sight.

  Both programs take `x1 : [256, 512]` and `x2 : [256, 1024]` and return one `[256, 1536]` array.
  Row `b` of the result has two parts. Columns `j < 512` hold the mean over `k` of the products
  `x1[b, j] · x2[b, k]`; columns `512 + j` hold the mean over `k` of `x1[b, k] · x2[b, j]`.
  One program forms every product, sums, and divides by the count. The other takes the mean of the
  row of the OTHER input first and scales by it: `x1[b, j] · mean_k x2[b, k]` and
  `x2[b, j] · mean_k x1[b, k]`.

  Over the real numbers the two agree because a common factor moves out of a finite sum
  (`∑ k, a · f k = a · ∑ k, f k`) and out of a quotient by a non-zero number. Over the extended reals
  the first of these fails at infinities (`⊤ · 1 + ⊤ · (-1) = ⊥` but `⊤ · 0 = 0`), so the law is stated
  for real entries; the claim's precondition says exactly that every entry is real.
-/
import Idealize.ShloMosaic.PureOps.Ideal
import Idealize.ShloMosaic.PureOps.Ideal.Laws
import Idealize.ShloMosaic.Lib.ValueIdx

noncomputable section

open scoped BigOperators

namespace Cert.RowMeans

open Idealize.ShloMosaic Idealize.ShloMosaic.ValueIdx

/-- The word `0x44800000` is the float `1024.0`, the length of a row of `x2`. -/
theorem ofBits_1024 : Ideal.ofBits .f32 0x44800000#32 = ((1024 : ℝ) : EReal) := by
  simp [Ideal.ofBits, Ideal.ieee, -EReal.coe_mul]; norm_num

/-- The word `0x44000000` is the float `512.0`, the length of a row of `x1`. -/
theorem ofBits_512 : Ideal.ofBits .f32 0x44000000#32 = ((512 : ℝ) : EReal) := by
  simp [Ideal.ofBits, Ideal.ieee, -EReal.coe_mul]; norm_num

/-- A finite sum of real numbers, taken in the extended reals, is the real sum. -/
theorem coe_sum {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- The mean of `a · f k` over `k` (the sum started from zero, then divided by `c ≠ 0`) is `a` times
    the mean of `f`: the factor `a` leaves the sum by distributivity and the quotient by
    associativity, all in ℝ. -/
theorem mean_mul_left {n : ℕ} (a : ℝ) (f : Fin n → ℝ) {c : ℝ} (hc : c ≠ 0) :
    Ideal.div (0 + ∑ k : Fin n, ((a : EReal) * (f k : EReal))) (c : EReal)
      = (a : EReal) * Ideal.div (∑ k : Fin n, (f k : EReal)) (c : EReal) := by
  rw [Ideal.div_coe hc, Ideal.div_coe hc, zero_add]
  simp only [← EReal.coe_mul, coe_sum]
  rw [← Finset.mul_sum, mul_assoc]

/-- The same with the common factor written on the right of each product. -/
theorem mean_mul_right {n : ℕ} (a : ℝ) (f : Fin n → ℝ) {c : ℝ} (hc : c ≠ 0) :
    Ideal.div (0 + ∑ k : Fin n, ((f k : EReal) * (a : EReal))) (c : EReal)
      = (a : EReal) * Ideal.div (∑ k : Fin n, (f k : EReal)) (c : EReal) := by
  rw [← mean_mul_left a f hc]
  simp only [mul_comm]

/-- THE RESULT both programs compute, as one function of the two inputs, for any number `n` of rows: at
    `(b, j)` with `j < 512`, `x1[b, j]` times the mean of row `b` of `x2`; at `(b, 512 + j)`, `x2[b, j]` times
    the mean of row `b` of `x1`. A mean is the row's sum divided by the row's length, the float `1024.0` or
    `512.0`. (The programs have `n = 256`; one grid step of the kernel works on `n = 128` rows.) -/
def scaledByRowMeans {n : ℕ} (x1 : (⟨2, ![n, 512]⟩ : Shape).Idx → EReal) (x2 : (⟨2, ![n, 1024]⟩ : Shape).Idx → EReal) :
    (⟨2, ![n, 1536]⟩ : Shape).Idx → EReal := fun j =>
  if h : (j 1).val < 512 then
    x1 (ix2 (j 0) ⟨(j 1).val, h⟩)
      * Ideal.div (∑ k : Fin 1024, x2 (ix2 (j 0) k)) (Ideal.ofBits .f32 0x44800000#32)
  else
    x2 (ix2 (j 0) ⟨(j 1).val - 512, by have := idx2_lt1 j; omega⟩)
      * Ideal.div (∑ k : Fin 512, x1 (ix2 (j 0) k)) (Ideal.ofBits .f32 0x44000000#32)

variable {n : ℕ} (x1 : (⟨2, ![n, 512]⟩ : Shape).Idx → EReal) (x2 : (⟨2, ![n, 1024]⟩ : Shape).Idx → EReal)

/-- The result at a column below `512`. -/
theorem scaledByRowMeans_left (b : Fin n) (q : Fin 1536) (hq : q.val < 512) :
    scaledByRowMeans x1 x2 (ix2 b q)
      = x1 (ix2 b ⟨q.val, hq⟩) * Ideal.div (∑ k : Fin 1024, x2 (ix2 b k)) (Ideal.ofBits .f32 0x44800000#32) :=
  dif_pos hq

/-- The result at a column from `512` on. -/
theorem scaledByRowMeans_right (b : Fin n) (q : Fin 1536) (hq : ¬ q.val < 512) :
    scaledByRowMeans x1 x2 (ix2 b q)
      = x2 (ix2 b ⟨q.val - 512, by have := q.isLt; omega⟩)
        * Ideal.div (∑ k : Fin 512, x1 (ix2 b k)) (Ideal.ofBits .f32 0x44000000#32) :=
  dif_neg hq

/-- ROWS ARE INDEPENDENT: row `p` of the result depends on row `p` of each input and on nothing else. So if
    `y1`, `y2` hold some rows of `x1`, `x2` (row `p` of `y` is row `f p` of `x`), the result of `y1`, `y2` holds
    the same rows of the result of `x1`, `x2`. -/
theorem scaledByRowMeans_rows {n' : ℕ} (y1 : (⟨2, ![n', 512]⟩ : Shape).Idx → EReal)
    (y2 : (⟨2, ![n', 1024]⟩ : Shape).Idx → EReal) (f : Fin n' → Fin n)
    (h1 : ∀ p k, y1 (ix2 p k) = x1 (ix2 (f p) k)) (h2 : ∀ p k, y2 (ix2 p k) = x2 (ix2 (f p) k))
    (p : Fin n') (q : Fin 1536) :
    scaledByRowMeans y1 y2 (ix2 p q) = scaledByRowMeans x1 x2 (ix2 (f p) q) := by
  by_cases hq : q.val < 512
  · rw [scaledByRowMeans_left y1 y2 p q hq, scaledByRowMeans_left x1 x2 (f p) q hq, h1]
    simp only [h2]
  · rw [scaledByRowMeans_right y1 y2 p q hq, scaledByRowMeans_right x1 x2 (f p) q hq, h2]
    simp only [h1]

end Cert.RowMeans

end
-- ==== Proof.RefRowMeans.lean ====
/-
  The reference computes `scaledByRowMeans`, on real inputs.

  The reference stretches `x1` to `[256, 512, 1024]` along a new last axis and `x2` along a new middle
  axis, multiplies (entry `(b, i, k)` is `x1[b, i] · x2[b, k]`), sums over the last axis and divides by
  `1024.0`, sums over the middle axis and divides by `512.0`, and lays the two quotients side by side.
  Read at an index, the left part at `(b, j)` is `(0 + ∑ k, x1[b, j] · x2[b, k]) / 1024` and the right
  part at `(b, j)` is `(0 + ∑ k, x1[b, k] · x2[b, j]) / 512`. For real entries the common factor leaves
  the sum and the quotient (`mean_mul_left`, `mean_mul_right`), which gives the two cases of
  `scaledByRowMeans`; the side-by-side layout is the case split on the column.
-/
import proofs.«176359_j11682311045657_1_alg».proof.Proof.Gen.ReferenceIdeal.Read
import proofs.«176359_j11682311045657_1_alg».proof.Proof.RowMeans

noncomputable section

namespace Cert.RowMeans.Ref

open Cert.ReferenceIdeal Cert.ReferenceIdeal.Gen Cert.ReferenceIdeal.Read
open Idealize.ShloMosaic Idealize.ShloMosaic.ValueIdx

/-- Entry `(b, j, k)` of the stretched `x1` comes from entry `(b, j)` of `x1`. -/
theorem src_x1_rowsum (b : Fin 256) (j : Fin 512) (k : Fin 1024) :
    idx_main_v0 (idx_main_v2 (idx_main_v5 (ix2 b j) k)) = ix2 b j :=
  funext fun a => Fin.ext (by match a with | ⟨0, _⟩ => rfl | ⟨1, _⟩ => rfl)

/-- Entry `(b, j, k)` of the stretched `x2` comes from entry `(b, k)` of `x2`. -/
theorem src_x2_rowsum (b : Fin 256) (j : Fin 512) (k : Fin 1024) :
    idx_main_v1 (idx_main_v3 (idx_main_v5 (ix2 b j) k)) = ix2 b k :=
  funext fun a => Fin.ext (by match a with | ⟨0, _⟩ => rfl | ⟨1, _⟩ => rfl)

/-- Entry `(b, k, j)` of the stretched `x1` comes from entry `(b, k)` of `x1`. -/
theorem src_x1_colsum (b : Fin 256) (j : Fin 1024) (k : Fin 512) :
    idx_main_v0 (idx_main_v2 (idx_main_v8 (ix2 b j) k)) = ix2 b k :=
  funext fun a => Fin.ext (by match a with | ⟨0, _⟩ => rfl | ⟨1, _⟩ => rfl)

/-- Entry `(b, k, j)` of the stretched `x2` comes from entry `(b, j)` of `x2`. -/
theorem src_x2_colsum (b : Fin 256) (j : Fin 1024) (k : Fin 512) :
    idx_main_v1 (idx_main_v3 (idx_main_v8 (ix2 b j) k)) = ix2 b j :=
  funext fun a => Fin.ext (by match a with | ⟨0, _⟩ => rfl | ⟨1, _⟩ => rfl)

variable (x1 : S256x512.Idx → EReal) (x2 : S256x1024.Idx → EReal)

/-- The left quotient at `(b, j)`: the mean over `k` of `x1[b, j] · x2[b, k]` is `x1[b, j]` times the mean of
    row `b` of `x2`. -/
theorem left_part (h1 : ∀ i, ∃ r : ℝ, x1 i = (r : EReal)) (h2 : ∀ i, ∃ r : ℝ, x2 i = (r : EReal))
    (b : Fin 256) (j : Fin 512) :
    val_main_v7 (F := Ideal) x1 x2 (ix2 b j)
      = x1 (ix2 b j) * Ideal.div (∑ k : Fin 1024, x2 (ix2 b k)) (Ideal.ofBits .f32 0x44800000#32) := by
  choose r1 hr1 using h1
  choose r2 hr2 using h2
  rw [val_main_v7_apply, val_main_v5_apply, val_main_v6_apply, val_main_cst_0_apply, val_main_cst_apply]
  simp only [val_main_v4_apply, val_main_v2_apply, val_main_v3_apply, val_main_v0_apply, val_main_v1_apply,
    src_x1_rowsum, src_x2_rowsum, hr1, hr2, Ideal.hostDivf_def, Ideal.mulf_def, Ideal.ofBits_def,
    Ideal.ofBits_zero_f32, ofBits_1024]
  exact mean_mul_left (r1 (ix2 b j)) (fun k => r2 (ix2 b k)) (by norm_num)

/-- The right quotient at `(b, j)`: the mean over `k` of `x1[b, k] · x2[b, j]` is `x2[b, j]` times the mean of
    row `b` of `x1`. -/
theorem right_part (h1 : ∀ i, ∃ r : ℝ, x1 i = (r : EReal)) (h2 : ∀ i, ∃ r : ℝ, x2 i = (r : EReal))
    (b : Fin 256) (j : Fin 1024) :
    val_main_v10 (F := Ideal) x1 x2 (ix2 b j)
      = x2 (ix2 b j) * Ideal.div (∑ k : Fin 512, x1 (ix2 b k)) (Ideal.ofBits .f32 0x44000000#32) := by
  choose r1 hr1 using h1
  choose r2 hr2 using h2
  rw [val_main_v10_apply, val_main_v8_apply, val_main_v9_apply, val_main_cst_2_apply, val_main_cst_1_apply]
  simp only [val_main_v4_apply, val_main_v2_apply, val_main_v3_apply, val_main_v0_apply, val_main_v1_apply,
    src_x1_colsum, src_x2_colsum, hr1, hr2, Ideal.hostDivf_def, Ideal.mulf_def, Ideal.ofBits_def,
    Ideal.ofBits_zero_f32, ofBits_512]
  exact mean_mul_right (r2 (ix2 b j)) (fun k => r1 (ix2 b k)) (by norm_num)

/-- Two arrays laid side by side along the columns, read at a column below `512`: the left array there. -/
theorem beside_left (A : S256x512.Idx → EReal) (B : S256x1024.Idx → EReal)
    (h : Shape.Concatenates [S256x512, S256x1024] S256x1536 1) (b : Fin 256) (q : Fin 1536) (hq : q.val < 512) :
    concatenate S256x1536 1 [⟨S256x512, A⟩, ⟨S256x1024, B⟩] h (ix2 b q) = A (ix2 b ⟨q.val, hq⟩) :=
  concatenate_pair_apply_left 1 A B h (ix2 b q) rfl (ix2 b ⟨q.val, hq⟩)
    (fun a => by match a with | ⟨0, _⟩ => rfl | ⟨1, _⟩ => rfl)

/-- … and at a column from `512` on: the right array `512` columns back. -/
theorem beside_right (A : S256x512.Idx → EReal) (B : S256x1024.Idx → EReal)
    (h : Shape.Concatenates [S256x512, S256x1024] S256x1536 1) (b : Fin 256) (q : Fin 1536) (hq : ¬ q.val < 512) :
    concatenate S256x1536 1 [⟨S256x512, A⟩, ⟨S256x1024, B⟩] h (ix2 b q)
      = B (ix2 b ⟨q.val - 512, by have := q.isLt; omega⟩) :=
  concatenate_pair_apply_right 1 A B h (ix2 b q) rfl rfl (ix2 b ⟨q.val - 512, by have := q.isLt; omega⟩)
    (fun a ha => by match a with | ⟨0, _⟩ => rfl | ⟨1, _⟩ => exact absurd rfl ha)
    (by show q.val - 512 + 512 = q.val; omega)

/-- The reference's result, the two quotients side by side, is `scaledByRowMeans` of real inputs: a column below
    `512` reads the left quotient at that column, a column from `512` on reads the right one `512` columns back. -/
theorem result_eq (h1 : ∀ i, ∃ r : ℝ, x1 i = (r : EReal)) (h2 : ∀ i, ∃ r : ℝ, x2 i = (r : EReal)) :
    val_main_v11 (F := Ideal) x1 x2 = scaledByRowMeans x1 x2 := by
  funext j
  obtain ⟨b, q, rfl⟩ : ∃ (b : Fin 256) (q : Fin 1536), j = ix2 b q := ⟨j 0, j 1, eq_ix2 j⟩
  unfold val_main_v11
  by_cases hq : q.val < 512
  · rw [scaledByRowMeans_left x1 x2 b q hq, beside_left _ _ _ b q hq]
    exact left_part x1 x2 h1 h2 b ⟨q.val, hq⟩
  · rw [scaledByRowMeans_right x1 x2 b q hq, beside_right _ _ _ b q hq]
    exact right_part x1 x2 h1 h2 b ⟨q.val - 512, by have := q.isLt; omega⟩

end Cert.RowMeans.Ref

end
-- ==== Proof.LibColumn.lean ====
/-
  Column vectors read at an index.

  A row reduction with `keepdims` leaves, for every row `p`, one number in a column of shape `[a, 1]`:
  first a length-`a` vector is re-shaped to that column, later the column is stretched along the
  second axis to shape `[a, b]`. Both steps only move numbers: entry `(p, 0)` of the column is entry
  `p` of the vector, and entry `(p, q)` of the stretched array is entry `(p, 0)` of the column, for
  every `q`. Stated for any extents and any element type.
-/
import Idealize.ShloMosaic.Lib.Pipeline.Value
import Idealize.ShloMosaic.Lib.ValueIdx

namespace Idealize.ShloMosaic.Column

open Idealize.ShloMosaic Idealize.ShloMosaic.ValueIdx

variable {α : Type}

/-- A length-`a` vector re-shaped to an `[a, 1]` column holds at `(p, u)` the vector's entry `p`
    (the only value of `u` is `0`): both have row-major position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column stretched to `[a, b]` holds at `(p, q)` the column's entry `(p, 0)`:
    the first axis is kept, the unit axis is repeated. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.KernelRowMeans.lean ====
/-
  One grid step of the kernel computes `scaledByRowMeans` of its two input blocks.

  A grid step loads a `[128, 512]` block `x0` of `x1` and a `[128, 1024]` block `x1` of `x2` (the same 128
  rows of both), sums every row of each along the lanes, re-shapes the 128 sums to a column, divides
  the column by the row length (`512.0`, `1024.0`) to get the row means, stretches each column of means
  across the other block's width and multiplies. The product `x0 · mean(rows of x1)` is stored into
  columns `0 … 511` of the `[128, 1536]` output block and `x1 · mean(rows of x0)` into columns
  `512 … 1535`. The two stores tile the block, so after the step the block holds, at `(p, q)`, the first
  product at `(p, q)` when `q < 512` and the second at `(p, q - 512)` otherwise: that is
  `scaledByRowMeans x0 x1` for 128 rows. No law of arithmetic is used: the kernel's text IS that formula.
-/
import proofs.«176359_j11682311045657_1_alg».proof.Proof.Gen.KernelIdeal.Frame
import proofs.«176359_j11682311045657_1_alg».proof.Proof.RowMeans
import proofs.«176359_j11682311045657_1_alg».proof.Proof.LibColumn
import Idealize.ShloMosaic.PureOps.Ideal.Laws
import Idealize.ShloMosaic.Lib.Pipeline.Value

set_option maxRecDepth 16384

noncomputable section

namespace Cert.RowMeans.Kern

open Cert.KernelIdeal Cert.KernelIdeal.Gen
open Idealize.ShloMosaic Idealize.ShloMosaic.TcCoe Idealize.ShloMosaic.Tactic Idealize.ShloMosaic.ValueIdx
open Idealize.SL.Sem

/-- A lane sum of a `[128, 1024]` block at row `p` is the sum of the row's 1024 entries. -/
theorem rowsum1024 (v : FVec Ideal S128x1024 .f32) (h : S128x1024.Reduces [1] S128) (p : Fin 128) :
    multiReduction .add [1] S128 v 0x00000000#32 h (.inl rfl) rfl (ix1 p) = ∑ k : Fin 1024, v (ix2 p k) := by
  refine (Ideal.multiReduction_add_single v 0x00000000#32 h (.inl rfl) rfl (ix1 p)).trans ?_
  refine Finset.sum_congr rfl fun k _ => congrArg v (funext fun a => Fin.ext ?_)
  match a with | ⟨0, _⟩ => rfl | ⟨1, _⟩ => rfl

/-- A lane sum of a `[128, 512]` block at row `p` is the sum of the row's 512 entries. -/
theorem rowsum512 (v : FVec Ideal S128x512 .f32) (h : S128x512.Reduces [1] S128) (p : Fin 128) :
    multiReduction .add [1] S128 v 0x00000000#32 h (.inl rfl) rfl (ix1 p) = ∑ k : Fin 512, v (ix2 p k) := by
  refine (Ideal.multiReduction_add_single v 0x00000000#32 h (.inl rfl) rfl (ix1 p)).trans ?_
  refine Finset.sum_congr rfl fun k _ => congrArg v (funext fun a => Fin.ext ?_)
  match a with | ⟨0, _⟩ => rfl | ⟨1, _⟩ => rfl

/-- The value stored into columns `0 … 511`, at `(p, q)`: `x0[p, q]` times the mean of row `p` of `x1`. -/
theorem leftStore_apply (x0 : FVec Ideal S128x512 .f32) (x1 : FVec Ideal S128x1024 .f32) (p : Fin 128) (q : Fin 512) :
    k0_pay1 (F := Ideal) x0 x1 (ix2 p q)
      = x0 (ix2 p q) * Ideal.div (∑ k : Fin 1024, x1 (ix2 p k)) (Ideal.ofBits .f32 0x44800000#32) := by
  unfold k0_pay1
  rw [mulf_apply, Column.broadcastTo_a1_ab_apply, divf_apply, Column.shapeCast_a_a1_apply, broadcast_apply,
    rowsum1024]
  rfl

/-- The value stored into columns `512 … 1535`, at `(p, q)`: `x1[p, q]` times the mean of row `p` of `x0`. -/
theorem rightStore_apply (x0 : FVec Ideal S128x512 .f32) (x1 : FVec Ideal S128x1024 .f32) (p : Fin 128) (q : Fin 1024) :
    k0_pay2 (F := Ideal) x0 x1 (ix2 p q)
      = x1 (ix2 p q) * Ideal.div (∑ k : Fin 512, x0 (ix2 p k)) (Ideal.ofBits .f32 0x44000000#32) := by
  unfold k0_pay2
  rw [mulf_apply, Column.broadcastTo_a1_ab_apply, divf_apply, Column.shapeCast_a_a1_apply, broadcast_apply,
    rowsum512]
  rfl

/-- The offsets `(0, 0)` of a load of a whole block. -/
theorem zeroOffsets : (![0, 0] : Fin 2 → Nat) = fun _ => 0 :=
  funext fun a => by match a with | ⟨0, _⟩ => rfl | ⟨1, _⟩ => rfl

/-- WHAT A GRID STEP LEAVES in its output block, from input blocks `x0`, `x1`: `scaledByRowMeans x0 x1`.
    The step's two stores are read back: an index with column `q ≥ 512` lies in the later store's rectangle
    (columns `512 … 1535`) at local column `q - 512`; one with `q < 512` lies outside it and in the earlier
    store's rectangle (columns `0 … 511`) at local column `q`. -/
theorem step_eq (c : Dev nD) (i : grid0.Coords) (arg1 : Memref sig .tc .vmem S128x512 .f32) (harg1 : arg1.IsWhole)
    (arg2 : Memref sig .tc .vmem S128x1024 .f32) (harg2 : arg2.IsWhole)
    (arg3 : Memref sig .tc .vmem S128x1536 .f32) (harg3 : arg3.IsWhole)
    (x0 : Vec Ideal S128x512 .f32) (x1 : Vec Ideal S128x1024 .f32) :
    out0_A_2 (F := Ideal) c i arg1 harg1 arg2 harg2 arg3 harg3 x0 x1 = scaledByRowMeans (n := 128) x0 x1 := by
  unfold out0_A_2
  rw [View.read_writes_eq_canon _ _ _ (cover0_A_2 c i arg1 harg1 arg2 harg2 arg3 harg3 x0 x1)]
  unfold kernelRun0_A
  dsimp only
  sl_unfold_words
  simp only [View.readAt_eq_ld, harg1.read_unread, harg2.read_unread, View.ld_unit_zero (S := S128x512) zeroOffsets,
    View.ld_unit_zero (S := S128x1024) zeroOffsets]
  funext y
  obtain ⟨p, q, rfl⟩ : ∃ (p : Fin 128) (q : Fin 1536), y = ix2 p q := ⟨y 0, y 1, eq_ix2 y⟩
  by_cases hq : q.val < 512
  · rw [scaledByRowMeans_left (n := 128) x0 x1 p q hq, View.canon_cons_of_not_mem]
    · have e : (ix2 p q : S128x1536.Idx)
          = (Rect.unit (s := S128x1536) ![0, 0] ![128, 512] inb_S128x1536_S128x512_0_0).emb (ix2 p ⟨q.val, hq⟩) :=
        funext fun a => Fin.ext (by
          match a with
          | ⟨0, _⟩ => show p.val = 0 + 1 * p.val; omega
          | ⟨1, _⟩ => show q.val = 0 + 1 * q.val; omega)
      rw [e, View.canon_cons_emb]
      exact leftStore_apply x0 x1 p ⟨q.val, hq⟩
    · rw [Rect.mem_set_unit]
      intro h
      have := (h 1).1
      have : 512 ≤ q.val := this
      omega
  · have e : (ix2 p q : S128x1536.Idx)
        = (Rect.unit (s := S128x1536) ![0, 512] ![128, 1024] inb_S128x1536_S128x1024_0_512).emb
            (ix2 p ⟨q.val - 512, by have := q.isLt; omega⟩) :=
      funext fun a => Fin.ext (by
        match a with
        | ⟨0, _⟩ => show p.val = 0 + 1 * p.val; omega
        | ⟨1, _⟩ => show q.val = 512 + 1 * (q.val - 512); omega)
    rw [scaledByRowMeans_right (n := 128) x0 x1 p q hq, e, View.canon_cons_emb]
    exact rightStore_apply x0 x1 p ⟨q.val - 512, by have := q.isLt; omega⟩

end Cert.RowMeans.Kern

end
-- ==== Proof.KernelArray.lean ====
/-
  The kernel's whole result is `scaledByRowMeans` of its two arguments.

  The grid has two steps. Step `t` reads rows `128 t … 128 t + 127` of both inputs (all their columns) and
  writes back the same rows of the result (all 1536 columns). By the step lemma the block written back is
  `scaledByRowMeans` of the two input blocks; since a row of that function depends only on the same row of
  each input, the block is rows `128 t … 128 t + 127` of `scaledByRowMeans` of the WHOLE inputs. Row `r` of
  the result is covered by step `r / 128`, so the two blocks tile the result and the array ends holding
  `scaledByRowMeans x1 x2`.
-/
import proofs.«176359_j11682311045657_1_alg».proof.Proof.Gen.KernelIdeal.Value
import proofs.«176359_j11682311045657_1_alg».proof.Proof.KernelRowMeans

set_option maxRecDepth 16384

noncomputable section

namespace Cert.RowMeans.Kern

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first argument as the kernel finds it, an array of extended reals. -/
abbrev arrX1 (c : Dev nD) : S256x512.Idx → EReal := V m c main_arg0
/-- The second argument as the kernel finds it. -/
abbrev arrX2 (c : Dev nD) : S256x1024.Idx → EReal := V m c main_arg1
/-- The block of the first argument that step `t` loads. -/
abbrev blkX1 (c : Dev nD) (t : Fin cfg0.N) : S128x512.Idx → EReal := iblk m c 0 t
/-- The block of the second argument that step `t` loads. -/
abbrev blkX2 (c : Dev nD) (t : Fin cfg0.N) : S128x1024.Idx → EReal := iblk m c 1 t

/-- Where the blocks sit: at step `t` every window's block is block `(t, 0)` of its array, and there are two
    steps (decided over the grid). -/
theorem blockIndex : ∀ t : Fin cfg0.N, t.val < 2
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the block of `x1` at step `t` is row `128 t + p` of `x1`. -/
theorem blkX1_apply (c : Dev nD) (t : Fin cfg0.N) (ht : t.val < 2) (p : Fin 128) (k : Fin 512) :
    blkX1 m c t (ix2 p k) = arrX1 m c (ix2 ⟨t.val * 128 + p.val, by omega⟩ k) := by
  obtain ⟨-, e0, e1, -⟩ := blockIndex t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 128 + 1 * p.val = t.val * 128 + p.val; omega
  | ⟨1, _⟩ => show win0_0.index t (1 : Fin 2) * 512 + 1 * k.val = k.val; omega

/-- Row `p` of the block of `x2` at step `t` is row `128 t + p` of `x2`. -/
theorem blkX2_apply (c : Dev nD) (t : Fin cfg0.N) (ht : t.val < 2) (p : Fin 128) (k : Fin 1024) :
    blkX2 m c t (ix2 p k) = arrX2 m c (ix2 ⟨t.val * 128 + p.val, by omega⟩ k) := by
  obtain ⟨-, -, -, e0, e1, -⟩ := blockIndex t
  show V m c main_arg1 (((cfg0.win 1).blk t).view.emb (ix2 p k)) = V m c main_arg1 _
  refine congrArg (V m c main_arg1) (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega

/-- What step `t` writes back is `scaledByRowMeans` of the two blocks it loaded (the step lemma at the step's
    own buffers and blocks). -/
theorem flushed_step (c : Dev nD) (t : Fin cfg0.N) :
    (dats m 0 c).flushed 2 t
      = (cfg0.win 2).cut (grid0.coords t) (scaledByRowMeans (n := 128) (blkX1 m c t) (blkX2 m c t)) :=
  (Value.flushed2_A m c t).trans (congrArg ((cfg0.win 2).cut (grid0.coords t))
    (step_eq c (grid0.coords t) (ms0_0 t) (hs0_0 t) (ms0_1 t) (hs0_1 t) (ms0_2 t) (hs0_2 t) (iblk m c 0 t) (iblk m c 1 t)))

/-- Row `p` of the result of the blocks at step `t` is row `128 t + p` of the result of the whole arguments:
    rows are independent, and row `p` of each block is row `128 t + p` of its array. -/
theorem rows_eq (c : Dev nD) (t : Fin cfg0.N) (ht : t.val < 2) (p : Fin 128) (q : Fin 1536) :
    scaledByRowMeans (n := 128) (blkX1 m c t) (blkX2 m c t) (ix2 p q)
      = scaledByRowMeans (n := 256) (arrX1 m c) (arrX2 m c) (ix2 ⟨t.val * 128 + p.val, by have := p.isLt; omega⟩ q) :=
  scaledByRowMeans_rows (arrX1 m c) (arrX2 m c) (blkX1 m c t) (blkX2 m c t)
    (fun p => ⟨t.val * 128 + p.val, by have := p.isLt; omega⟩) (blkX1_apply m c t ht) (blkX2_apply m c t ht) p q

/-- WHAT STEP `t` WRITES BACK is block `t` of `scaledByRowMeans` of the whole arguments: entry `(p, q)` of the
    block sits at `(128 t + p, q)` of the result array. -/
theorem flushed_eq (c : Dev nD) (t : Fin cfg0.N) :
    (dats m 0 c).flushed 2 t
      = ((cfg0.win 2).blk t).view.read (Elt Ideal) (scaledByRowMeans (n := 256) (arrX1 m c) (arrX2 m c)) := by
  obtain ⟨ht, -, -, -, -, e0, e1⟩ := blockIndex t
  refine (flushed_step m c t).trans ?_
  funext y
  obtain ⟨p, q, rfl⟩ : ∃ (p : Fin 128) (q : Fin 1536), y = ix2 p q := ⟨y 0, y 1, eq_ix2 y⟩
  refine (rows_eq m c t ht p q).trans ?_
  refine congrArg (scaledByRowMeans (arrX1 m c) (arrX2 m c)) (funext fun a => Fin.ext ?_)
  match a with
  | ⟨0, _⟩ => show t.val * 128 + p.val = win0_2.index t (0 : Fin 2) * 128 + 1 * p.val; omega
  | ⟨1, _⟩ => show q.val = win0_2.index t (1 : Fin 2) * 1536 + 1 * q.val; omega

/-- An index of the result is in step `t`'s block iff each coordinate is in the block's range on its axis. -/
theorem mem_blk (t : Fin cfg0.N) (i : S256x1536.Idx) :
    i ∈ ((cfg0.win 2).blk t).view.set ↔ ∀ a : Fin 2, win0_2.index t a * S128x1536.size a ≤ (i a).val
      ∧ (i a).val < win0_2.index t a * S128x1536.size a + S128x1536.size a := by
  show i ∈ ((View.whole main_v0).slice (win0_2.rect t)).set ↔ _
  rw [View.set_slice_whole, Rect.mem_set_unit]
  exact Iff.rfl

/-- Every index of the result is in some step's block: row `r` in step `r / 128`'s. -/
theorem cover (i : S256x1536.Idx) :
    ∃ t : Fin cfg0.N, (cfg0.win 2).flush t = true ∧ i ∈ ((cfg0.win 2).blk t).view.set := by
  have hi0 : (i 0).val < 256 := (i 0).isLt
  have hi1 : (i 1).val < 1536 := (i 1).isLt
  let t : Fin cfg0.N := ⟨(i 0).val / 128, by show (i 0).val / 128 < 2; omega⟩
  obtain ⟨-, -, -, -, -, e0, e1⟩ := blockIndex t
  have et : t.val = (i 0).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1536 ≤ (i 1).val ∧ (i 1).val < win0_2.index t (1 : Fin 2) * 1536 + 1536; omega

/-- THE RESULT ARRAY after the run: `scaledByRowMeans` of the two arguments. -/
theorem final (c : Dev nD) :
    (dats m 0 c).arrAt 2 cfg0.N
      = scaledByRowMeans (n := 256) (m ((c : Thread nD τ).loc main_arg0)) (m ((c : Thread nD τ).loc main_arg1)) :=
  (dats m 0 c).arrAt_eq_of_cover 2 (scaledByRowMeans (n := 256) (arrX1 m c) (arrX2 m c))
    (fun t _ => flushed_eq m c t) cover

/-- THE KERNEL'S RUN, read: every weakly fair execution ends with the result array at `scaledByRowMeans` of the
    arguments and the arguments unchanged. -/
theorem run : θ_run defs (onTc (τ := τ) (main (F := Ideal))) ⟨m, fun _ => 0, ρ⟩ fun r => ∀ c : Dev nD,
      r.2.mem ((c : Thread nD τ).loc main_v0)
        = scaledByRowMeans (n := 256) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.RowMeans.Kern

end
-- ==== Proof.lean ====
/-
  The kernel and its reference compute the same `[256, 1536]` array from `x1 : [256, 512]` and
  `x2 : [256, 1024]`, on finite inputs.

  Row `b` of the result is the two means of the outer product of row `b` of `x1` with row `b` of `x2`:
  columns `j < 512` hold `mean_k (x1[b, j] · x2[b, k])` and columns `512 + j` hold `mean_k (x1[b, k] · x2[b, j])`.
  The reference forms the `[256, 512, 1024]` array of products, sums it along one axis or the other from a
  zero start, and divides by `1024.0` or `512.0`. The kernel never forms the products: for 128 rows at a
  time it takes the mean of each row of `x2` (resp. `x1`) and scales `x1` (resp. `x2`) by it.

  Both are the one function `scaledByRowMeans x1 x2` (Proof/RowMeans.lean). For the kernel this is its own text
  read index by index, block by block (Proof/KernelRowMeans.lean, Proof/KernelArray.lean). For the reference it
  is the law `(∑ k, a · f k) / c = a · ((∑ k, f k) / c)`, which holds for real `a`, `f k` and `c ≠ 0` but not at
  infinities; the precondition, "every entry has absolute value below `+∞`", supplies exactly that the
  entries are real (Proof/RealInputs.lean, Proof/RefRowMeans.lean).

  The idealization changed no operation, so the kernel's idealized text is its own text and nothing is owed
  for it. Each program runs to completion and leaves its arguments as they were.
-/
import proofs.«176359_j11682311045657_1_alg».proof.Defs
import proofs.«176359_j11682311045657_1_alg».proof.Proof.Gen.Kernel
import proofs.«176359_j11682311045657_1_alg».proof.Proof.Gen.Kernel.Skeleton
import proofs.«176359_j11682311045657_1_alg».proof.Proof.Gen.Kernel.Launch
import proofs.«176359_j11682311045657_1_alg».proof.Proof.Gen.Kernel.Points
import proofs.«176359_j11682311045657_1_alg».proof.Proof.Gen.Kernel.Frame
import proofs.«176359_j11682311045657_1_alg».proof.Proof.Gen.KernelIdeal
import proofs.«176359_j11682311045657_1_alg».proof.Proof.Gen.KernelIdeal.Skeleton
import proofs.«176359_j11682311045657_1_alg».proof.Proof.Gen.KernelIdeal.Launch
import proofs.«176359_j11682311045657_1_alg».proof.Proof.Gen.KernelIdeal.Points
import proofs.«176359_j11682311045657_1_alg».proof.Proof.Gen.KernelIdeal.Frame
import proofs.«176359_j11682311045657_1_alg».proof.Proof.Gen.ReferenceIdeal
import proofs.«176359_j11682311045657_1_alg».proof.Proof.Gen.Pre_finite_inputs
import proofs.«176359_j11682311045657_1_alg».proof.Proof.Gen.KernelIdeal.Value
import proofs.«176359_j11682311045657_1_alg».proof.Proof.Gen.ReferenceIdeal.Run
import proofs.«176359_j11682311045657_1_alg».proof.Proof.Gen.ReferenceIdeal.Read
import proofs.«176359_j11682311045657_1_alg».proof.Proof.RealInputs
import proofs.«176359_j11682311045657_1_alg».proof.Proof.RefRowMeans
import proofs.«176359_j11682311045657_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, the kernel's result array and the reference's are both
    `scaledByRowMeans` of the arguments: the kernel's by its run read block by block, the reference's by the
    factor-out law on the real entries the precondition gives. -/
theorem algebraic : Cert.algebraic_KernelIdeal_ReferenceIdeal := by
  intro m ρ m' ρ' hpre hagree
  refine ⟨fun c => Cert.RowMeans.scaledByRowMeans (n := 256)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.RowMeans.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.RowMeans.real_of_pre _ _ (hpre c)
  rw [Cert.ReferenceIdeal.Read.val_main_v11_eq, (hagree c).1, (hagree c).2]
  exact Cert.RowMeans.Ref.result_eq _ _ h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
